-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S5000x128 : Shape := ⟨2, ![5000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S5000x64 : Shape := ⟨2, ![5000, 64]⟩
abbrev S800000x64 : Shape := ⟨2, ![800000, 64]⟩
abbrev S1x64 : Shape := ⟨2, ![1, 64]⟩

abbrev nBuf : Space → Nat
  | .hbm => 58
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S1x128, .f32⟩
  | .hbm, ⟨42, _⟩ => ⟨S50000x64, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x64, .f32⟩
  | .hbm, ⟨52, _⟩ => ⟨S_, .f32⟩
  | .hbm, ⟨53, _⟩ => ⟨S50000x64, .f32⟩
  | .hbm, ⟨54, _⟩ => ⟨S800000x1, .i32⟩
  | .hbm, ⟨55, _⟩ => ⟨S50000x64, .f32⟩
  | .hbm, ⟨56, _⟩ => ⟨S1x64, .f32⟩
  | .hbm, ⟨57, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x128, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .f32⟩
  | .hbm, ⟨42, _⟩ => ⟨S_, .f32⟩
  | .hbm, ⟨43, _⟩ => ⟨S50000x128, .f32⟩
  | .hbm, ⟨44, _⟩ => ⟨S800000x1, .i32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S50000x64, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩
abbrev main_c_1 : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibPlainDotGeneral.lean ====
/-
  The host's plain matrix product read at an index, at the ideal values.

  For dimension numbers `d` over shapes [M, K] × [K, N] → [M, N] that contract the left operand's axis 1 with the right
  operand's axis 0 and keep the left rows and the right columns — stated as the four facts about the record's index
  maps that say so, so that the lemma serves any record — `dot_general` read at `(p, o)` is `∑ k, A (p, k) · B (k, o)`:
  at the ideal values the host's product has no accumulator and no schedule, it is the sum over the record's
  contraction index set, re-indexed here by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainDotGeneral

/-- `Host.dotGeneral d prec A B (p, o) = ∑ k : Fin K, A (p, k) * B (k, o)` for a record `d` with one contracted axis of
    extent `K` whose left index at `(i, q)` is `(i 0, q)` and whose right index is `(q, i 1)`. -/
theorem dotGeneral_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    Host.dotGeneral d prec A B (ix2 p o) = ∑ k : Fin K, A (ix2 p k) * B (ix2 k o) := by
  show FloatOps.dotGeneral d prec .single A B (ix2 p o) = _
  rw [Ideal.dotGeneral_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainDotGeneral

end
-- ==== Proof.Spec.lean ====
/-
  What three stacked graph-convolution layers compute, as whole-array functions over the extended reals.

  A layer takes node features `h` ([nodes, in]), multiplies each row by a weight matrix (`mm`), and for every node sums
  the transformed rows of the sources of its incoming edges (`agg…`: gather the rows at the edges' source ids, then
  scatter-add them at the edges' destination ids, into zero). Between layers a bias row is added and the negative part
  is cut off (`biasRelu`); after the last layer only the bias is added (`addBias`). A one-axis bias of `K` entries is
  used as the one row of a [1, K] array (`asRow`). `gcn` is the composition.

  The edge list is an integer array [2, edges]: row 0 the source ids, row 1 the destination ids. A negative source id
  counts from the end (`srcIx`: the node count is added to it); which rows an id outside the range reads or writes is
  whatever the gather and the scatter-add do with it — both programs apply the same two operations, so the proof never
  opens them.

  The dense pieces are stated index by index: `mm A B (p, o) = ∑ k, A (p, k) · B (k, o)`,
  `biasRelu A b (p, k) = max (A (p, k) + b (0, k)) 0`, `addBias A b (p, o) = A (p, o) + b (0, o)`.
  The second half of the file reads the host's own spellings of these pieces — `dot_general`; a bias broadcast first to
  one row and then to every row, added, and a maximum with a zero splat — as the functions above.
-/
import proofs.«156256_j1623497638183_1_alg».proof.Proof.Gen.ReferenceIdeal.Read
import proofs.«156256_j1623497638183_1_alg».proof.Proof.LibPlainDotGeneral
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.Gcn

/-! ## The dense pieces, index by index -/

section Dense
variable {M K N : ℕ}

/-- Rows times a matrix: entry `(p, o)` is `∑ k, A (p, k) · B (k, o)`. -/
def mm (A : FVec Ideal ⟨2, ![M, K]⟩ .f32) (B : FVec Ideal ⟨2, ![K, N]⟩ .f32) : FVec Ideal ⟨2, ![M, N]⟩ .f32 :=
  fun i => ∑ k : Fin K, A (ix2 (i 0) k) * B (ix2 k (i 1))

theorem mm_apply (A : FVec Ideal ⟨2, ![M, K]⟩ .f32) (B : FVec Ideal ⟨2, ![K, N]⟩ .f32) (p : Fin M) (o : Fin N) :
    mm A B (ix2 p o) = ∑ k : Fin K, A (ix2 p k) * B (ix2 k o) := rfl

/-- A bias row added to every row, then the negative part cut off. -/
def biasRelu (A : FVec Ideal ⟨2, ![M, K]⟩ .f32) (b : FVec Ideal ⟨2, ![1, K]⟩ .f32) : FVec Ideal ⟨2, ![M, K]⟩ .f32 :=
  fun i => max (A i + b (ix2 0 (i 1))) (Ideal.ofBits .f32 0x00000000#32)

theorem biasRelu_apply (A : FVec Ideal ⟨2, ![M, K]⟩ .f32) (b : FVec Ideal ⟨2, ![1, K]⟩ .f32) (p : Fin M) (k : Fin K) :
    biasRelu A b (ix2 p k) = max (A (ix2 p k) + b (ix2 0 k)) (Ideal.ofBits .f32 0x00000000#32) := rfl

/-- A bias row added to every row. -/
def addBias (A : FVec Ideal ⟨2, ![M, K]⟩ .f32) (b : FVec Ideal ⟨2, ![1, K]⟩ .f32) : FVec Ideal ⟨2, ![M, K]⟩ .f32 :=
  fun i => A i + b (ix2 0 (i 1))

/-- A one-axis array as the one row of a two-axis one. -/
def asRow (b : FVec Ideal ⟨1, ![K]⟩ .f32) : FVec Ideal ⟨2, ![1, K]⟩ .f32 := fun i => b (ix1 (i 1))

end Dense

/-! ## The edges, and the sum over incoming edges -/

open Cert.ReferenceIdeal Cert.ReferenceIdeal.Facts₀

/-- Row 0 of the edge list: each edge's source id. -/
def srcRow (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- Row 1 of the edge list: each edge's destination id. -/
def dstRow (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- The source ids as a column of start indices, a negative id moved up by the node count. -/
def srcIx (s : (⟨S800000, .i32⟩ : BufTy).Contents (Elt Ideal)) : (⟨S800000x1, .i32⟩ : BufTy).Contents (Elt Ideal) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The destination ids as a column of scatter indices. -/
def dstIx (d : (⟨S800000, .i32⟩ : BufTy).Contents (Elt Ideal)) : (⟨S800000x1, .i32⟩ : BufTy).Contents (Elt Ideal) :=
  broadcastInDim S800000x1 ![0] bcast_S800000_S800000x1_0 d

/-- Every node's sum of the rows of `t` at the sources of its incoming edges, 128 features wide. -/
def agg128 (s d : (⟨S800000, .i32⟩ : BufTy).Contents (Elt Ideal)) (t : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32)) (dstIx d)
    (Host.gather gather_S50000x128_S800000x1_S800000x128_1_0_n_n_0_1_1128 t (srcIx s))

/-- The same, 64 features wide. -/
def agg64 (s d : (⟨S800000, .i32⟩ : BufTy).Contents (Elt Ideal)) (t : FVec Ideal S50000x64 .f32) : FVec Ideal S50000x64 .f32 :=
  Host.scatterAdd scatter_S50000x64_S800000x1_S800000x64_1_0_0_1
    (broadcastInDim S50000x64 ![] bcast_S_S50000x64 (constant S_ .f32 0x00000000#32)) (dstIx d)
    (Host.gather gather_S50000x64_S800000x1_S800000x64_1_0_n_n_0_1_164 t (srcIx s))

/-- Three layers: transform, aggregate, bias (and cut-off between layers). -/
def gcn (x : FVec Ideal S50000x128 .f32) (e : (⟨S2x800000, .i32⟩ : BufTy).Contents (Elt Ideal))
    (W1 : FVec Ideal S128x128 .f32) (b1 : FVec Ideal S128 .f32) (W2 : FVec Ideal S128x128 .f32) (b2 : FVec Ideal S128 .f32)
    (W3 : FVec Ideal S128x64 .f32) (b3 : FVec Ideal S64 .f32) : FVec Ideal S50000x64 .f32 :=
  addBias (agg64 (srcRow e) (dstRow e)
    (mm (biasRelu (agg128 (srcRow e) (dstRow e)
      (mm (biasRelu (agg128 (srcRow e) (dstRow e) (mm x W1)) (asRow b1)) W2)) (asRow b2)) W3)) (asRow b3)

/-! ## The host's spellings of the dense pieces -/

open Cert.ReferenceIdeal.Read

/-- The host's [50000, 128] × [128, 128] product is `mm`. -/
theorem hostDot128 (A : FVec Ideal S50000x128 .f32) (W : FVec Ideal S128x128 .f32) :
    Host.dotGeneral dot_S50000x128_S128x128_S50000x128_1_0_0_1_n_n none A W = mm A W := by
  funext i
  obtain ⟨p, o, rfl⟩ : ∃ (p : Fin 50000) (o : Fin 128), i = ix2 p o := ⟨i 0, i 1, eq_ix2 i⟩
  exact Cert.LibPlainDotGeneral.dotGeneral_apply dot_S50000x128_S128x128_S50000x128_1_0_0_1_n_n none rfl rfl
    lhs_main_v4_0 lhs_main_v4_1 rhs_main_v4_0 rhs_main_v4_1 A W p o

/-- The host's [50000, 128] × [128, 64] product is `mm`. -/
theorem hostDot64 (A : FVec Ideal S50000x128 .f32) (W : FVec Ideal S128x64 .f32) :
    Host.dotGeneral dot_S50000x128_S128x64_S50000x64_1_0_0_1_n_n none A W = mm A W := by
  funext i
  obtain ⟨p, o, rfl⟩ : ∃ (p : Fin 50000) (o : Fin 64), i = ix2 p o := ⟨i 0, i 1, eq_ix2 i⟩
  exact Cert.LibPlainDotGeneral.dotGeneral_apply dot_S50000x128_S128x64_S50000x64_1_0_0_1_n_n none rfl rfl
    lhs_main_v34_0 lhs_main_v34_1 rhs_main_v34_0 rhs_main_v34_1 A W p o

/-- A bias of 128 entries broadcast to one row and then to every row reads, at `(p, k)`, its entry `k`. -/
theorem hostBias128_apply (b : FVec Ideal S128 .f32) (i : S50000x128.Idx) :
    broadcastInDim S50000x128 ![0, 1] bcast_S1x128_S50000x128_0_1 (broadcastInDim S1x128 ![1] bcast_S128_S1x128_1 b) i
      = asRow b (ix2 0 (i 1)) :=
  ((val_main_v16_apply (F := Ideal) b i).trans (val_main_v15_apply (F := Ideal) b _)).trans
    (congrArg b (funext fun a => Fin.ext (by match a with | ⟨0, _⟩ => rfl)))

/-- The same for 64 entries. -/
theorem hostBias64_apply (b : FVec Ideal S64 .f32) (i : S50000x64.Idx) :
    broadcastInDim S50000x64 ![0, 1] bcast_S1x64_S50000x64_0_1 (broadcastInDim S1x64 ![1] bcast_S64_S1x64_1 b) i
      = asRow b (ix2 0 (i 1)) :=
  ((val_main_v46_apply (F := Ideal) b i).trans (val_main_v45_apply (F := Ideal) b _)).trans
    (congrArg b (funext fun a => Fin.ext (by match a with | ⟨0, _⟩ => rfl)))

/-- The host's bias add and `relu` (a maximum with the zero splat) are `biasRelu`. -/
theorem hostBiasRelu (A : FVec Ideal S50000x128 .f32) (b : FVec Ideal S128 .f32) :
    maximumf (addf A (broadcastInDim S50000x128 ![0, 1] bcast_S1x128_S50000x128_0_1 (broadcastInDim S1x128 ![1] bcast_S128_S1x128_1 b)))
      (broadcastInDim S50000x128 ![] bcast_S_S50000x128 (constant S_ .f32 0x00000000#32)) = biasRelu A (asRow b) := by
  funext i
  show max (A i + _) (broadcastInDim S50000x128 ![] bcast_S_S50000x128 (constant (F := Ideal) S_ .f32 0x00000000#32) i) = max (A i + _) _
  rw [hostBias128_apply, broadcastInDim_apply _ bcast_S_S50000x128 _ i ix0 (fun a => a.elim0)]
  rfl

/-- The host's last bias add is `addBias`. -/
theorem hostAddBias (A : FVec Ideal S50000x64 .f32) (b : FVec Ideal S64 .f32) :
    addf A (broadcastInDim S50000x64 ![0, 1] bcast_S1x64_S50000x64_0_1 (broadcastInDim S1x64 ![1] bcast_S64_S1x64_1 b))
      = addBias A (asRow b) := by
  funext i
  show A i + _ = A i + _
  rw [hostBias64_apply]

end Cert.Gcn

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.KernelDots.lean ====
/-
  The kernel's two block products, read at an index over the extended reals.

  Each kernel body multiplies a block of 5000 rows by a whole weight matrix on the matrix unit, accumulating into a zero
  splat. The products' dimension numbers contract the left operand's columns with the right operand's rows; the four
  facts below say so for each of the two records (128 and 64 output columns), and with them the product's entry
  `(p, o)` is `∑ k, A (p, k) · B (k, o)`.
-/
import proofs.«156256_j1623497638183_1_alg».proof.Proof.Gen.KernelIdeal
import proofs.«156256_j1623497638183_1_alg».proof.Proof.LibPlainMatmul
import Idealize.ShloMosaic.Lib.ValueIdx
import Idealize.ShloMosaic.PureOps.Ideal.Laws

noncomputable section

open scoped BigOperators

namespace Cert.KernelIdeal.Dots

open Cert.KernelIdeal Idealize.ShloMosaic Idealize.ShloMosaic.ValueIdx

/-! ## 5000 × 128 times 128 × 128 -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into zero at `(p, o)`. -/
theorem matmul128_apply {φ₁ φ₂ : FTy} (A : FVec Ideal S5000x128 φ₁) (B : FVec Ideal S128x128 φ₂) (p : Fin 5000) (o : Fin 128) :
    matmul dot_S5000x128_S128x128_S5000x128_1_0_0_1_n_n none A B (constant S5000x128 .f32 0x00000000#32) (ix2 p o)
      = ∑ k : Fin 128, A (ix2 p k) * B (ix2 k o) :=
  Cert.LibPlainMatmul.matmul_zero_apply dot_S5000x128_S128x128_S5000x128_1_0_0_1_n_n none rfl rfl lhs128_0 lhs128_1 rhs128_0 rhs128_1 A B p o

/-! ## 5000 × 128 times 128 × 64 -/

theorem lhs64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs64_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product into zero at `(p, o)`. -/
theorem matmul64_apply {φ₁ φ₂ : FTy} (A : FVec Ideal S5000x128 φ₁) (B : FVec Ideal S128x64 φ₂) (p : Fin 5000) (o : Fin 64) :
    matmul dot_S5000x128_S128x64_S5000x64_1_0_0_1_n_n none A B (constant S5000x64 .f32 0x00000000#32) (ix2 p o)
      = ∑ k : Fin 128, A (ix2 p k) * B (ix2 k o) :=
  Cert.LibPlainMatmul.matmul_zero_apply dot_S5000x128_S128x64_S5000x64_1_0_0_1_n_n none rfl rfl lhs64_0 lhs64_1 rhs64_0 rhs64_1 A B p o

end Cert.KernelIdeal.Dots

end
-- ==== Proof.Region0.lean ====
/-
  The first kernel region: the node features times the first weight matrix, 5000 rows at a time.

  Grid point `t` reads rows `5000·t … 5000·t + 4999` of the features and the whole [128, 128] weight matrix, multiplies
  them on the matrix unit into a zero accumulator (the operands narrowed to bf16 first, which changes nothing over the
  extended reals), and writes the product to the same rows of the output. The ten row blocks tile the output, so after
  the region the output array is `mm` of the two arrays the region found.
-/
import proofs.«156256_j1623497638183_1_alg».proof.Proof.Gen.KernelIdeal.Frame
import proofs.«156256_j1623497638183_1_alg».proof.Proof.Spec
import proofs.«156256_j1623497638183_1_alg».proof.Proof.KernelDots
import Idealize.ShloMosaic.Lib.Pipeline.Value
import Idealize.ShloMosaic.Lib.ValueIdx

set_option maxRecDepth 16384

noncomputable section

open scoped BigOperators

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-- The zero start offsets of a whole-buffer access. -/
theorem hz : (![0, 0] : Fin 2 → Nat) = fun _ => 0 := funext fun a => by fin_cases a <;> rfl

/-- The body's value at `(p, o)`: row `p` of the feature block against column `o` of the weights. -/
theorem pay_apply (x0 : Vec Ideal S5000x128 .f32) (x1 : Vec Ideal S128x128 .f32) (p : Fin 5000) (o : Fin 128) :
    k0_pay1 x0 x1 (ix2 p o) = ∑ k : Fin 128, x0 (ix2 p k) * x1 (ix2 k o) := by
  unfold k0_pay1
  exact Dots.matmul128_apply (truncf .bf16 x0 bitsLt_bf16_f32) (truncf .bf16 x1 bitsLt_bf16_f32) p o

/-- The body's value as one function of its two loaded blocks. -/
theorem pay_eq (x0 : Vec Ideal S5000x128 .f32) (x1 : Vec Ideal S128x128 .f32) :
    k0_pay1 x0 x1 = fun i => ∑ k : Fin 128, x0 (ix2 (i 0) k) * x1 (ix2 k (i 1)) := by
  funext i
  obtain ⟨p, o, rfl⟩ : ∃ (p : Fin 5000) (o : Fin 128), i = ix2 p o := ⟨i 0, i 1, eq_ix2 i⟩
  exact pay_apply x0 x1 p o

variable (V : (c : Dev nD) → (b : Ref sig .tc) → Buf (Elt Ideal) ((c : Thread nD τ).loc b))

/-- The features as the region finds them, under their literal type. -/
abbrev xArr (c : Dev nD) : FVec Ideal S50000x128 .f32 := V c main_arg0
/-- The weights as the region finds them, under their literal type. -/
abbrev wArr (c : Dev nD) : FVec Ideal S128x128 .f32 := V c main_arg2

/-- The printed index maps, decided over the grid: the features' block moves with the output's, the weights' stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of `mm` of the arrays the region found. -/
theorem flushed_eq (c : Dev nD) (t : Fin cfg0.N) :
    (dat0 V c).flushed 2 t = ((cfg0.win 2).blk t).view.read (Elt Ideal) (mm (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  rw [pay_eq]
  obtain ⟨e0, e1, e2, e3, e4, e5⟩ := idx_facts t
  funext j
  show ∑ k : Fin 128, xArr V c (((cfg0.win 0).blk t).view.emb (ix2 (j 0) k)) * wArr V c (((cfg0.win 1).blk t).view.emb (ix2 k (j 1)))
    = ∑ k : Fin 128, xArr V c (ix2 (((cfg0.win 2).blk t).view.emb j 0) k) * wArr V c (ix2 k (((cfg0.win 2).blk t).view.emb j 1))
  refine Finset.sum_congr rfl fun k _ => ?_
  have h0 : ((cfg0.win 0).blk t).view.emb (ix2 (j 0) k) = ix2 (((cfg0.win 2).blk t).view.emb j 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (ix2 k (j 1)) = ix2 k (((cfg0.win 2).blk t).view.emb j 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact congrArg₂ (· * ·) (congrArg (xArr V c) h0) (congrArg (wArr V c) h1)

/-- An index of the output is in point `t`'s block iff its row is among the block's 5000 rows. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- Every row of the output lies in some point's block: row `r` in point `r / 5000`'s. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the output array is `mm` of the features and the weights as the region found them. -/
theorem arr (c : Dev nD) : (dat0 V c).arrAt 2 cfg0.N = mm (V c main_arg0) (V c main_arg2) :=
  (dat0 V c).arrAt_eq_of_cover 2 _ (fun t _ => flushed_eq V c t) cover

end Cert.KernelIdeal.Region0

end
-- ==== Proof.Region1.lean ====
/-
  A middle kernel region: bias, cut-off, and the next weight matrix, 5000 rows at a time.

  Grid point `t` reads rows `5000·t … 5000·t + 4999` of the aggregate, the whole one-row bias and the whole weight matrix;
  it adds the bias row to each of its rows, replaces negative entries by zero, and multiplies the result by the weights on
  the matrix unit into a zero accumulator (both operands narrowed to bf16 first, which changes nothing over the extended
  reals); the product goes to the same rows of the output. The ten row blocks tile the output, so after the region the
  output array is `mm (biasRelu aggregate bias) weights` of the three arrays the region found.
-/
import proofs.«156256_j1623497638183_1_alg».proof.Proof.Gen.KernelIdeal.Frame
import proofs.«156256_j1623497638183_1_alg».proof.Proof.Spec
import proofs.«156256_j1623497638183_1_alg».proof.Proof.KernelDots
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-- The zero start offsets of a whole-buffer access. -/
theorem hz : (![0, 0] : Fin 2 → Nat) = fun _ => 0 := funext fun a => by fin_cases a <;> rfl

/-- One entry of the activated block: the aggregate's entry plus the bias row's, or zero if that is larger. -/
theorem act_apply (x0 : Vec Ideal S5000x128 .f32) (x1 : Vec Ideal S1x128 .f32) (p : Fin 5000) (k : Fin 128) :
    maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) (ix2 p k)
      = max (x0 (ix2 p k) + x1 (ix2 0 k)) (Ideal.ofBits .f32 0x00000000#32) := by
  show max (shapeCast S5000x128 x0 shapeCasts_S5000x128_S5000x128 (ix2 p k)
    + broadcastTo S5000x128 (shapeCast S1x128 x1 shapeCasts_S1x128_S1x128) broadcasts_S1x128_S5000x128 (ix2 p k)) _ = _
  rw [shapeCast_self, shapeCast_self,
    broadcastTo_apply x1 broadcasts_S1x128_S5000x128 (ix2 p k) (ix2 0 k) (fun a => match a with
      | ⟨0, _⟩ => by show 0 = if (1 : Nat) = 1 then 0 else _; rw [if_pos rfl]
      | ⟨1, _⟩ => by show k.val = if (128 : Nat) = 1 then 0 else k.val; rw [if_neg (by decide)])]
  rfl

/-- The body's value at `(p, o)`: row `p` of the activated block against column `o` of the weights. -/
theorem pay_apply (x0 : Vec Ideal S5000x128 .f32) (x1 : Vec Ideal S1x128 .f32) (x2 : Vec Ideal S128x128 .f32) (p : Fin 5000) (o : Fin 128) :
    k1_pay1 x0 x1 x2 (ix2 p o)
      = ∑ k : Fin 128, max (x0 (ix2 p k) + x1 (ix2 0 k)) (Ideal.ofBits .f32 0x00000000#32) * x2 (ix2 k o) := by
  unfold k1_pay1
  refine (Dots.matmul128_apply (truncf .bf16 (maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32))) bitsLt_bf16_f32) (truncf .bf16 x2 bitsLt_bf16_f32) p o).trans ?_
  exact Finset.sum_congr rfl fun k _ => congrArg (· * x2 (ix2 k o)) (act_apply x0 x1 p k)

/-- The body's value as one function of its three loaded blocks. -/
theorem pay_eq (x0 : Vec Ideal S5000x128 .f32) (x1 : Vec Ideal S1x128 .f32) (x2 : Vec Ideal S128x128 .f32) :
    k1_pay1 x0 x1 x2 = fun i => ∑ k : Fin 128, max (x0 (ix2 (i 0) k) + x1 (ix2 0 k)) (Ideal.ofBits .f32 0x00000000#32) * x2 (ix2 k (i 1)) := by
  funext i
  obtain ⟨p, o, rfl⟩ : ∃ (p : Fin 5000) (o : Fin 128), i = ix2 p o := ⟨i 0, i 1, eq_ix2 i⟩
  exact pay_apply x0 x1 x2 p o

variable (V : (c : Dev nD) → (b : Ref sig .tc) → Buf (Elt Ideal) ((c : Thread nD τ).loc b))

/-- The aggregate as the region finds it, under its literal type. -/
abbrev aggArr (c : Dev nD) : FVec Ideal S50000x128 .f32 := V c main_v14
/-- The bias row as the region finds it, under its literal type. -/
abbrev biasArr (c : Dev nD) : FVec Ideal S1x128 .f32 := V c main_v15
/-- The weights as the region finds them, under their literal type. -/
abbrev wArr (c : Dev nD) : FVec Ideal S128x128 .f32 := V c main_arg4

/-- The printed index maps, decided over the grid: the aggregate's block moves with the output's, the others stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `mm (biasRelu aggregate bias) weights` of the arrays the region found. -/
theorem flushed_eq (c : Dev nD) (t : Fin cfg1.N) :
    (dat1 V c).flushed 3 t = ((cfg1.win 3).blk t).view.read (Elt Ideal) (mm (biasRelu (V c main_v14) (V c main_v15)) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S1x128) hz, View.ld_unit_zero (S := S128x128) hz]
  rw [pay_eq]
  obtain ⟨e0, e1, e2, e3, e4, e5, e6, e7⟩ := idx_facts t
  funext j
  show ∑ k : Fin 128, max (aggArr V c (((cfg1.win 0).blk t).view.emb (ix2 (j 0) k)) + biasArr V c (((cfg1.win 1).blk t).view.emb (ix2 0 k))) (Ideal.ofBits .f32 0x00000000#32)
      * wArr V c (((cfg1.win 2).blk t).view.emb (ix2 k (j 1)))
    = ∑ k : Fin 128, max (aggArr V c (ix2 (((cfg1.win 3).blk t).view.emb j 0) k) + biasArr V c (ix2 0 k)) (Ideal.ofBits .f32 0x00000000#32)
      * wArr V c (ix2 k (((cfg1.win 3).blk t).view.emb j 1))
  refine Finset.sum_congr rfl fun k _ => ?_
  have h0 : ((cfg1.win 0).blk t).view.emb (ix2 (j 0) k) = ix2 (((cfg1.win 3).blk t).view.emb j 0) k := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  have h1 : ((cfg1.win 1).blk t).view.emb (ix2 0 k) = ix2 0 k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : ((cfg1.win 2).blk t).view.emb (ix2 k (j 1)) = ix2 k (((cfg1.win 3).blk t).view.emb j 1) := by
    funext a; apply Fin.ext
    match a with
    | ⟨0, _⟩ => show win1_2.index t (0 : Fin 2) * 128 + 1 * k.val = k.val; omega
    | ⟨1, _⟩ => show win1_2.index t (1 : Fin 2) * 128 + 1 * (j 1).val = win1_3.index t (1 : Fin 2) * 128 + 1 * (j 1).val; omega
  exact congrArg₂ (· * ·)
    (congrArg (max · (Ideal.ofBits .f32 0x00000000#32)) (congrArg₂ (· + ·) (congrArg (aggArr V c) h0) (congrArg (biasArr V c) h1)))
    (congrArg (wArr V c) h2)

/-- An index of the output is in point `t`'s block iff its row is among the block's 5000 rows. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v16).slice (win1_3.rect t)).set ↔ _
  rw [View.set_slice_whole, Rect.mem_set_unit]
  exact Iff.rfl

/-- Every row of the output lies in some point's block: row `r` in point `r / 5000`'s. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, -, e6, e7⟩ := idx_facts t
  have e6' : win1_3.index t (0 : Fin 2) = (i 0).val / 5000 := e6
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the region the output array is `mm (biasRelu aggregate bias) weights` of the arrays the region found. -/
theorem arr (c : Dev nD) : (dat1 V c).arrAt 3 cfg1.N = mm (biasRelu (V c main_v14) (V c main_v15)) (V c main_arg4) :=
  (dat1 V c).arrAt_eq_of_cover 3 _ (fun t _ => flushed_eq V c t) cover

end Cert.KernelIdeal.Region1

end
-- ==== Proof.Region2.lean ====
/-
  The other middle kernel region (128 features in, 64 out): bias, cut-off, and the next weight matrix, 5000 rows at a time.

  Grid point `t` reads rows `5000·t … 5000·t + 4999` of the aggregate, the whole one-row bias and the whole weight matrix;
  it adds the bias row to each of its rows, replaces negative entries by zero, and multiplies the result by the weights on
  the matrix unit into a zero accumulator (both operands narrowed to bf16 first, which changes nothing over the extended
  reals); the product goes to the same rows of the output. The ten row blocks tile the output, so after the region the
  output array is `mm (biasRelu aggregate bias) weights` of the three arrays the region found.
-/
import proofs.«156256_j1623497638183_1_alg».proof.Proof.Gen.KernelIdeal.Frame
import proofs.«156256_j1623497638183_1_alg».proof.Proof.Spec
import proofs.«156256_j1623497638183_1_alg».proof.Proof.KernelDots
import Idealize.ShloMosaic.Lib.Pipeline.Value
import Idealize.ShloMosaic.Lib.ValueIdx

set_option maxRecDepth 16384

noncomputable section

open scoped BigOperators

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-- The zero start offsets of a whole-buffer access. -/
theorem hz : (![0, 0] : Fin 2 → Nat) = fun _ => 0 := funext fun a => by fin_cases a <;> rfl

/-- One entry of the activated block: the aggregate's entry plus the bias row's, or zero if that is larger. -/
theorem act_apply (x0 : Vec Ideal S5000x128 .f32) (x1 : Vec Ideal S1x128 .f32) (p : Fin 5000) (k : Fin 128) :
    maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)) (ix2 p k)
      = max (x0 (ix2 p k) + x1 (ix2 0 k)) (Ideal.ofBits .f32 0x00000000#32) := by
  show max (shapeCast S5000x128 x0 shapeCasts_S5000x128_S5000x128 (ix2 p k)
    + broadcastTo S5000x128 (shapeCast S1x128 x1 shapeCasts_S1x128_S1x128) broadcasts_S1x128_S5000x128 (ix2 p k)) _ = _
  rw [shapeCast_self, shapeCast_self,
    broadcastTo_apply x1 broadcasts_S1x128_S5000x128 (ix2 p k) (ix2 0 k) (fun a => match a with
      | ⟨0, _⟩ => by show 0 = if (1 : Nat) = 1 then 0 else _; rw [if_pos rfl]
      | ⟨1, _⟩ => by show k.val = if (128 : Nat) = 1 then 0 else k.val; rw [if_neg (by decide)])]
  rfl

/-- The body's value at `(p, o)`: row `p` of the activated block against column `o` of the weights. -/
theorem pay_apply (x0 : Vec Ideal S5000x128 .f32) (x1 : Vec Ideal S1x128 .f32) (x2 : Vec Ideal S128x64 .f32) (p : Fin 5000) (o : Fin 64) :
    k2_pay1 x0 x1 x2 (ix2 p o)
      = ∑ k : Fin 128, max (x0 (ix2 p k) + x1 (ix2 0 k)) (Ideal.ofBits .f32 0x00000000#32) * x2 (ix2 k o) := by
  unfold k2_pay1
  refine (Dots.matmul64_apply (truncf .bf16 (maximumf (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32))) bitsLt_bf16_f32) (truncf .bf16 x2 bitsLt_bf16_f32) p o).trans ?_
  exact Finset.sum_congr rfl fun k _ => congrArg (· * x2 (ix2 k o)) (act_apply x0 x1 p k)

/-- The body's value as one function of its three loaded blocks. -/
theorem pay_eq (x0 : Vec Ideal S5000x128 .f32) (x1 : Vec Ideal S1x128 .f32) (x2 : Vec Ideal S128x64 .f32) :
    k2_pay1 x0 x1 x2 = fun i => ∑ k : Fin 128, max (x0 (ix2 (i 0) k) + x1 (ix2 0 k)) (Ideal.ofBits .f32 0x00000000#32) * x2 (ix2 k (i 1)) := by
  funext i
  obtain ⟨p, o, rfl⟩ : ∃ (p : Fin 5000) (o : Fin 64), i = ix2 p o := ⟨i 0, i 1, eq_ix2 i⟩
  exact pay_apply x0 x1 x2 p o

variable (V : (c : Dev nD) → (b : Ref sig .tc) → Buf (Elt Ideal) ((c : Thread nD τ).loc b))

/-- The aggregate as the region finds it, under its literal type. -/
abbrev aggArr (c : Dev nD) : FVec Ideal S50000x128 .f32 := V c main_v26
/-- The bias row as the region finds it, under its literal type. -/
abbrev biasArr (c : Dev nD) : FVec Ideal S1x128 .f32 := V c main_v27
/-- The weights as the region finds them, under their literal type. -/
abbrev wArr (c : Dev nD) : FVec Ideal S128x64 .f32 := V c main_arg6

/-- The printed index maps, decided over the grid: the aggregate's block moves with the output's, the others stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `mm (biasRelu aggregate bias) weights` of the arrays the region found. -/
theorem flushed_eq (c : Dev nD) (t : Fin cfg2.N) :
    (dat2 V c).flushed 3 t = ((cfg2.win 3).blk t).view.read (Elt Ideal) (mm (biasRelu (V c main_v26) (V c main_v27)) (V c main_arg6)) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x64) hz]
  rw [pay_eq]
  obtain ⟨e0, e1, e2, e3, e4, e5, e6, e7⟩ := idx_facts t
  funext j
  show ∑ k : Fin 128, max (aggArr V c (((cfg2.win 0).blk t).view.emb (ix2 (j 0) k)) + biasArr V c (((cfg2.win 1).blk t).view.emb (ix2 0 k))) (Ideal.ofBits .f32 0x00000000#32)
      * wArr V c (((cfg2.win 2).blk t).view.emb (ix2 k (j 1)))
    = ∑ k : Fin 128, max (aggArr V c (ix2 (((cfg2.win 3).blk t).view.emb j 0) k) + biasArr V c (ix2 0 k)) (Ideal.ofBits .f32 0x00000000#32)
      * wArr V c (ix2 k (((cfg2.win 3).blk t).view.emb j 1))
  refine Finset.sum_congr rfl fun k _ => ?_
  have h0 : ((cfg2.win 0).blk t).view.emb (ix2 (j 0) k) = ix2 (((cfg2.win 3).blk t).view.emb j 0) k := by
    funext a; apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 128 + 1 * k.val = k.val; omega
  have h1 : ((cfg2.win 1).blk t).view.emb (ix2 0 k) = ix2 0 k := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : ((cfg2.win 2).blk t).view.emb (ix2 k (j 1)) = ix2 k (((cfg2.win 3).blk t).view.emb j 1) := by
    funext a; apply Fin.ext
    match a with
    | ⟨0, _⟩ => show win2_2.index t (0 : Fin 2) * 128 + 1 * k.val = k.val; omega
    | ⟨1, _⟩ => show win2_2.index t (1 : Fin 2) * 64 + 1 * (j 1).val = win2_3.index t (1 : Fin 2) * 64 + 1 * (j 1).val; omega
  exact congrArg₂ (· * ·)
    (congrArg (max · (Ideal.ofBits .f32 0x00000000#32)) (congrArg₂ (· + ·) (congrArg (aggArr V c) h0) (congrArg (biasArr V c) h1)))
    (congrArg (wArr V c) h2)

/-- An index of the output is in point `t`'s block iff its row is among the block's 5000 rows. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v28).slice (win2_3.rect t)).set ↔ _
  rw [View.set_slice_whole, Rect.mem_set_unit]
  exact Iff.rfl

/-- Every row of the output lies in some point's block: row `r` in point `r / 5000`'s. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  let t : Fin cfg2.N := ⟨(i 0).val / 5000, by rw [show cfg2.N = 10 from N_2]; omega⟩
  obtain ⟨-, -, -, -, -, -, e6, e7⟩ := idx_facts t
  have e6' : win2_3.index t (0 : Fin 2) = (i 0).val / 5000 := e6
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

/-- After the region the output array is `mm (biasRelu aggregate bias) weights` of the arrays the region found. -/
theorem arr (c : Dev nD) : (dat2 V c).arrAt 3 cfg2.N = mm (biasRelu (V c main_v26) (V c main_v27)) (V c main_arg6) :=
  (dat2 V c).arrAt_eq_of_cover 3 _ (fun t _ => flushed_eq V c t) cover

end Cert.KernelIdeal.Region2

end
-- ==== Proof.Region3.lean ====
/-
  The last kernel region: a bias row added to every row of a [50000, 64] array, 5000 rows at a time.

  Grid point `t` reads rows `5000·t … 5000·t + 4999` of the aggregate and the whole one-row bias, adds the bias row to each
  of its rows, and writes the result back to the same rows of the output. The ten row blocks tile the output, so after
  the region the output array is `addBias` of the two arrays the region found, whatever those are.
-/
import proofs.«156256_j1623497638183_1_alg».proof.Proof.Gen.KernelIdeal.Frame
import proofs.«156256_j1623497638183_1_alg».proof.Proof.Spec
import Idealize.ShloMosaic.Lib.Pipeline.Value
import Idealize.ShloMosaic.Lib.ValueIdx

set_option maxRecDepth 16384

noncomputable section

open scoped BigOperators

namespace Cert.KernelIdeal.Region3

open Cert.KernelIdeal Cert.KernelIdeal.Gen Cert.Gcn
open Idealize.ShloMosaic Idealize.ShloMosaic.TcCoe Idealize.ShloMosaic.ValueIdx Idealize.SL.Sem
open Idealize.ShloMosaic.Pipeline (Dat)

/-- The zero start offsets of a whole-buffer access. -/
theorem hz : (![0, 0] : Fin 2 → Nat) = fun _ => 0 := funext fun a => by fin_cases a <;> rfl

/-- The body's value at `(p, o)`: the aggregate block's entry plus the bias row's entry `o`. -/
theorem pay_apply (x0 : Vec Ideal S5000x64 .f32) (x1 : Vec Ideal S1x64 .f32) (p : Fin 5000) (o : Fin 64) :
    k3_pay1 x0 x1 (ix2 p o) = x0 (ix2 p o) + x1 (ix2 0 o) := by
  unfold k3_pay1
  show shapeCast S5000x64 x0 shapeCasts_S5000x64_S5000x64 (ix2 p o)
    + broadcastTo S5000x64 (shapeCast S1x64 x1 shapeCasts_S1x64_S1x64) broadcasts_S1x64_S5000x64 (ix2 p o) = _
  rw [shapeCast_self, shapeCast_self,
    broadcastTo_apply x1 broadcasts_S1x64_S5000x64 (ix2 p o) (ix2 0 o) (fun a => match a with
      | ⟨0, _⟩ => by show 0 = if (1 : Nat) = 1 then 0 else _; rw [if_pos rfl]
      | ⟨1, _⟩ => by show o.val = if (64 : Nat) = 1 then 0 else o.val; rw [if_neg (by decide)])]

/-- The body's value as one function of its two loaded blocks. -/
theorem pay_eq (x0 : Vec Ideal S5000x64 .f32) (x1 : Vec Ideal S1x64 .f32) :
    k3_pay1 x0 x1 = fun i => x0 i + x1 (ix2 0 (i 1)) := by
  funext i
  obtain ⟨p, o, rfl⟩ : ∃ (p : Fin 5000) (o : Fin 64), i = ix2 p o := ⟨i 0, i 1, eq_ix2 i⟩
  exact pay_apply x0 x1 p o

variable (V : (c : Dev nD) → (b : Ref sig .tc) → Buf (Elt Ideal) ((c : Thread nD τ).loc b))

/-- The aggregate as the region finds it, under its literal type. -/
abbrev aggArr (c : Dev nD) : FVec Ideal S50000x64 .f32 := V c main_v38
/-- The bias row as the region finds it, under its literal type. -/
abbrev biasArr (c : Dev nD) : FVec Ideal S1x64 .f32 := V c main_v39

/-- The printed index maps, decided over the grid: the aggregate's block moves with the output's, the bias's stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `addBias` of the arrays the region found. -/
theorem flushed_eq (c : Dev nD) (t : Fin cfg3.N) :
    (dat3 V c).flushed 2 t = ((cfg3.win 2).blk t).view.read (Elt Ideal) (addBias (V c main_v38) (V c main_v39)) := by
  show (cfg3.win 2).cut (grid3.coords t) ((dat3 V c).after 2 t) = _
  rw [after3_2]
  unfold out3_2
  rw [View.canon_unit_zero hz]
  simp only [View.ld_unit_zero (S := S5000x64) hz, View.ld_unit_zero (S := S1x64) hz]
  rw [pay_eq]
  obtain ⟨e0, e1, e2, e3, e4, e5⟩ := idx_facts t
  funext j
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 0 (j 1)) = ix2 0 (((cfg3.win 2).blk t).view.emb j 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  show aggArr V c (((cfg3.win 0).blk t).view.emb j) + biasArr V c (((cfg3.win 1).blk t).view.emb (ix2 0 (j 1)))
    = aggArr V c (((cfg3.win 2).blk t).view.emb j) + biasArr V c (ix2 0 (((cfg3.win 2).blk t).view.emb j 1))
  exact congrArg₂ (· + ·) (congrArg (aggArr V c) h0) (congrArg (biasArr V c) h1)

/-- An index of the output is in point `t`'s block iff its row is among the block's 5000 rows. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v40).slice (win3_2.rect t)).set ↔ _
  rw [View.set_slice_whole, Rect.mem_set_unit]
  exact Iff.rfl

/-- Every row of the output lies in some point's block: row `r` in point `r / 5000`'s. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  let t : Fin cfg3.N := ⟨(i 0).val / 5000, by rw [show cfg3.N = 10 from N_3]; omega⟩
  obtain ⟨-, -, -, -, e4, e5⟩ := idx_facts t
  have e4' : win3_2.index t (0 : Fin 2) = (i 0).val / 5000 := e4
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- After the region the output array is `addBias` of the aggregate and the bias row as the region found them. -/
theorem arr (c : Dev nD) : (dat3 V c).arrAt 2 cfg3.N = addBias (V c main_v38) (V c main_v39) :=
  (dat3 V c).arrAt_eq_of_cover 2 _ (fun t _ => flushed_eq V c t) cover

end Cert.KernelIdeal.Region3

end
-- ==== Proof.KernelValue.lean ====
/-
  What the idealized kernel returns: `gcn` of its arguments.

  The frame certificate keeps what every buffer holds at each of @main's nine boundaries (`W0` at launch, then after each
  host stretch and each kernel region, `W8` at the return). This file follows the result buffer back through them:

    the result is region 3's output: the last aggregate plus the last bias row;
    that aggregate is the host's gather and scatter-add of region 2's output, which is `mm (biasRelu …) W3` of the
    aggregate before it; and so on down to region 0's output `mm x W1`.

  Between the regions the host stretches compute the aggregates from the edge list's two rows (sliced off once, in the
  first stretch, and unchanged since: nothing later writes them) and reshape each bias to one row. Every argument is
  read where it is used at the contents it was launched with, because no stretch and no region writes an argument.
-/
import proofs.«156256_j1623497638183_1_alg».proof.Proof.Gen.KernelIdeal.Frame
import proofs.«156256_j1623497638183_1_alg».proof.Proof.Spec
import proofs.«156256_j1623497638183_1_alg».proof.Proof.Region0
import proofs.«156256_j1623497638183_1_alg».proof.Proof.Region1
import proofs.«156256_j1623497638183_1_alg».proof.Proof.Region2
import proofs.«156256_j1623497638183_1_alg».proof.Proof.Region3
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen Cert.Gcn
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A buffer's contents after a host stretch, read back operation by operation to the contents before it. -/
local macro "through " W:ident ops:ident : tactic => `(tactic| (dsimp only [$W:ident, $ops:ident]; after_results))

/-! ## The arguments and the edge rows, wherever they are read -/

theorem x_at1 : W1 m ρ c (Proc.devRef .tc main_arg0) = m ((c : Thread nD τ).loc main_arg0) := by
  through W1 hostOps0
theorem w1_at1 : W1 m ρ c (Proc.devRef .tc main_arg2) = m ((c : Thread nD τ).loc main_arg2) := by
  through W1 hostOps0

theorem src_at2 : W2 m ρ c (Proc.devRef .tc main_v1) = srcRow (m ((c : Thread nD τ).loc main_arg1)) := by
  rw [W2_of_ne m ρ c main_v1 (by decide)]; through W1 hostOps0; rfl
theorem dst_at2 : W2 m ρ c (Proc.devRef .tc main_v3) = dstRow (m ((c : Thread nD τ).loc main_arg1)) := by
  rw [W2_of_ne m ρ c main_v3 (by decide)]; through W1 hostOps0; rfl
theorem src_at4 : W4 m ρ c (Proc.devRef .tc main_v1) = srcRow (m ((c : Thread nD τ).loc main_arg1)) := by
  rw [W4_of_ne m ρ c main_v1 (by decide)]; through W3 hostOps1; exact src_at2 m ρ c
theorem dst_at4 : W4 m ρ c (Proc.devRef .tc main_v3) = dstRow (m ((c : Thread nD τ).loc main_arg1)) := by
  rw [W4_of_ne m ρ c main_v3 (by decide)]; through W3 hostOps1; exact dst_at2 m ρ c
theorem src_at6 : W6 m ρ c (Proc.devRef .tc main_v1) = srcRow (m ((c : Thread nD τ).loc main_arg1)) := by
  rw [W6_of_ne m ρ c main_v1 (by decide)]; through W5 hostOps2; exact src_at4 m ρ c
theorem dst_at6 : W6 m ρ c (Proc.devRef .tc main_v3) = dstRow (m ((c : Thread nD τ).loc main_arg1)) := by
  rw [W6_of_ne m ρ c main_v3 (by decide)]; through W5 hostOps2; exact dst_at4 m ρ c

theorem b1_at2 : W2 m ρ c (Proc.devRef .tc main_arg3) = m ((c : Thread nD τ).loc main_arg3) := by
  rw [W2_of_ne m ρ c main_arg3 (by decide)]; through W1 hostOps0
theorem w2_at2 : W2 m ρ c (Proc.devRef .tc main_arg4) = m ((c : Thread nD τ).loc main_arg4) := by
  rw [W2_of_ne m ρ c main_arg4 (by decide)]; through W1 hostOps0
theorem w2_at3 : W3 m ρ c (Proc.devRef .tc main_arg4) = m ((c : Thread nD τ).loc main_arg4) := by
  through W3 hostOps1; exact w2_at2 m ρ c
theorem b2_at2 : W2 m ρ c (Proc.devRef .tc main_arg5) = m ((c : Thread nD τ).loc main_arg5) := by
  rw [W2_of_ne m ρ c main_arg5 (by decide)]; through W1 hostOps0
theorem b2_at4 : W4 m ρ c (Proc.devRef .tc main_arg5) = m ((c : Thread nD τ).loc main_arg5) := by
  rw [W4_of_ne m ρ c main_arg5 (by decide)]; through W3 hostOps1; exact b2_at2 m ρ c
theorem w3_at2 : W2 m ρ c (Proc.devRef .tc main_arg6) = m ((c : Thread nD τ).loc main_arg6) := by
  rw [W2_of_ne m ρ c main_arg6 (by decide)]; through W1 hostOps0
theorem w3_at4 : W4 m ρ c (Proc.devRef .tc main_arg6) = m ((c : Thread nD τ).loc main_arg6) := by
  rw [W4_of_ne m ρ c main_arg6 (by decide)]; through W3 hostOps1; exact w3_at2 m ρ c
theorem w3_at5 : W5 m ρ c (Proc.devRef .tc main_arg6) = m ((c : Thread nD τ).loc main_arg6) := by
  through W5 hostOps2; exact w3_at4 m ρ c
theorem b3_at2 : W2 m ρ c (Proc.devRef .tc main_arg7) = m ((c : Thread nD τ).loc main_arg7) := by
  rw [W2_of_ne m ρ c main_arg7 (by decide)]; through W1 hostOps0
theorem b3_at4 : W4 m ρ c (Proc.devRef .tc main_arg7) = m ((c : Thread nD τ).loc main_arg7) := by
  rw [W4_of_ne m ρ c main_arg7 (by decide)]; through W3 hostOps1; exact b3_at2 m ρ c
theorem b3_at6 : W6 m ρ c (Proc.devRef .tc main_arg7) = m ((c : Thread nD τ).loc main_arg7) := by
  rw [W6_of_ne m ρ c main_arg7 (by decide)]; through W5 hostOps2; exact b3_at4 m ρ c

/-- A one-axis array reshaped to one row is `asRow` of it. -/
theorem reshape_row {K : ℕ} (b : FVec Ideal ⟨1, ![K]⟩ .f32) (h : (⟨1, ![K]⟩ : Shape).ShapeCasts ⟨2, ![1, K]⟩) :
    shapeCast ⟨2, ![1, K]⟩ b h = asRow b := by
  funext j
  refine (shapeCast_addUnit_apply ![K] b h j).trans (congrArg b (funext fun a => ?_))
  match a with | ⟨0, _⟩ => rfl

/-! ## Layer 1 -/

/-- Region 0's output: the features times the first weights. -/
theorem t1 : W2 m ρ c (Proc.devRef .tc main_v4)
    = mm (m ((c : Thread nD τ).loc main_arg0)) (m ((c : Thread nD τ).loc main_arg2)) := by
  refine (W2_arr m ρ c 2).trans ((Region0.arr (V1 m ρ) c).trans ?_)
  show mm (W1 m ρ c (Proc.devRef .tc main_arg0)) (W1 m ρ c (Proc.devRef .tc main_arg2)) = _
  rw [x_at1, w1_at1]

/-- The first aggregate, as region 1 finds it. -/
theorem a1 : W3 m ρ c (Proc.devRef .tc main_v14)
    = agg128 (srcRow (m ((c : Thread nD τ).loc main_arg1))) (dstRow (m ((c : Thread nD τ).loc main_arg1)))
        (mm (m ((c : Thread nD τ).loc main_arg0)) (m ((c : Thread nD τ).loc main_arg2))) := by
  through W3 hostOps1
  rw [src_at2, dst_at2, t1]
  rfl

/-- The first bias as one row, as region 1 finds it. -/
theorem r1 : W3 m ρ c (Proc.devRef .tc main_v15) = asRow (m ((c : Thread nD τ).loc main_arg3)) := by
  through W3 hostOps1
  rw [b1_at2]
  exact reshape_row _ _

/-! ## Layer 2 -/

/-- Region 1's output: the first layer's activations times the second weights. -/
theorem t2 : W4 m ρ c (Proc.devRef .tc main_v16)
    = mm (biasRelu (agg128 (srcRow (m ((c : Thread nD τ).loc main_arg1))) (dstRow (m ((c : Thread nD τ).loc main_arg1)))
          (mm (m ((c : Thread nD τ).loc main_arg0)) (m ((c : Thread nD τ).loc main_arg2))))
        (asRow (m ((c : Thread nD τ).loc main_arg3)))) (m ((c : Thread nD τ).loc main_arg4)) := by
  refine (W4_arr m ρ c 3).trans ((Region1.arr (V3 m ρ) c).trans ?_)
  show mm (biasRelu (W3 m ρ c (Proc.devRef .tc main_v14)) (W3 m ρ c (Proc.devRef .tc main_v15))) (W3 m ρ c (Proc.devRef .tc main_arg4)) = _
  rw [a1, r1, w2_at3]

/-- The second aggregate, as region 2 finds it. -/
theorem a2 : W5 m ρ c (Proc.devRef .tc main_v26)
    = agg128 (srcRow (m ((c : Thread nD τ).loc main_arg1))) (dstRow (m ((c : Thread nD τ).loc main_arg1)))
        (mm (biasRelu (agg128 (srcRow (m ((c : Thread nD τ).loc main_arg1))) (dstRow (m ((c : Thread nD τ).loc main_arg1)))
            (mm (m ((c : Thread nD τ).loc main_arg0)) (m ((c : Thread nD τ).loc main_arg2))))
          (asRow (m ((c : Thread nD τ).loc main_arg3)))) (m ((c : Thread nD τ).loc main_arg4))) := by
  through W5 hostOps2
  rw [src_at4, dst_at4, t2]
  rfl

/-- The second bias as one row, as region 2 finds it. -/
theorem r2 : W5 m ρ c (Proc.devRef .tc main_v27) = asRow (m ((c : Thread nD τ).loc main_arg5)) := by
  through W5 hostOps2
  rw [b2_at4]
  exact reshape_row _ _

/-! ## Layer 3 -/

/-- Region 2's output: the second layer's activations times the third weights. -/
theorem t3 : W6 m ρ c (Proc.devRef .tc main_v28)
    = mm (biasRelu (agg128 (srcRow (m ((c : Thread nD τ).loc main_arg1))) (dstRow (m ((c : Thread nD τ).loc main_arg1)))
          (mm (biasRelu (agg128 (srcRow (m ((c : Thread nD τ).loc main_arg1))) (dstRow (m ((c : Thread nD τ).loc main_arg1)))
              (mm (m ((c : Thread nD τ).loc main_arg0)) (m ((c : Thread nD τ).loc main_arg2))))
            (asRow (m ((c : Thread nD τ).loc main_arg3)))) (m ((c : Thread nD τ).loc main_arg4))))
        (asRow (m ((c : Thread nD τ).loc main_arg5)))) (m ((c : Thread nD τ).loc main_arg6)) := by
  refine (W6_arr m ρ c 3).trans ((Region2.arr (V5 m ρ) c).trans ?_)
  show mm (biasRelu (W5 m ρ c (Proc.devRef .tc main_v26)) (W5 m ρ c (Proc.devRef .tc main_v27))) (W5 m ρ c (Proc.devRef .tc main_arg6)) = _
  rw [a2, r2, w3_at5]

/-- The third bias as one row, as region 3 finds it. -/
theorem r3 : W7 m ρ c (Proc.devRef .tc main_v39) = asRow (m ((c : Thread nD τ).loc main_arg7)) := by
  through W7 hostOps3
  rw [b3_at6]
  exact reshape_row _ _

set_option maxHeartbeats 1000000 in
/-- The third aggregate, as region 3 finds it: `gcn` short of its last bias. -/
theorem a3 : W7 m ρ c (Proc.devRef .tc main_v38)
    = agg64 (srcRow (m ((c : Thread nD τ).loc main_arg1))) (dstRow (m ((c : Thread nD τ).loc main_arg1)))
        (mm (biasRelu (agg128 (srcRow (m ((c : Thread nD τ).loc main_arg1))) (dstRow (m ((c : Thread nD τ).loc main_arg1)))
            (mm (biasRelu (agg128 (srcRow (m ((c : Thread nD τ).loc main_arg1))) (dstRow (m ((c : Thread nD τ).loc main_arg1)))
                (mm (m ((c : Thread nD τ).loc main_arg0)) (m ((c : Thread nD τ).loc main_arg2))))
              (asRow (m ((c : Thread nD τ).loc main_arg3)))) (m ((c : Thread nD τ).loc main_arg4))))
          (asRow (m ((c : Thread nD τ).loc main_arg5)))) (m ((c : Thread nD τ).loc main_arg6))) := by
  through W7 hostOps3
  rw [src_at6, dst_at6, t3]
  rfl

/-! ## The result -/

set_option maxHeartbeats 1000000 in
/-- The result buffer at the return holds `gcn` of the arguments as launched. -/
theorem result : W8 m ρ c (Proc.devRef .tc main_v40)
    = gcn (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (W8_arr m ρ c 2).trans ((Region3.arr (V7 m ρ) c).trans ?_)
  show addBias (W7 m ρ c (Proc.devRef .tc main_v38)) (W7 m ρ c (Proc.devRef .tc main_v39)) = _
  rw [a3, r3]
  rfl

end Cert.KernelIdeal.Chain

end
-- ==== Proof.RefValue.lean ====
/-
  What the idealized reference returns: `gcn` of its arguments.

  The reference's run ends with its result at one composed term of the arguments: three times a `dot_general`, a gather
  at the edges' sources and a scatter-add at their destinations, a bias broadcast and added, and (twice) a maximum with
  the zero splat. Reading each dense piece as the function it is over the extended reals (the host's product as `mm`,
  bias and maximum as `biasRelu`, the last bias as `addBias`) leaves exactly `gcn`; the gathers and scatter-adds are
  `gcn`'s own.
-/
import proofs.«156256_j1623497638183_1_alg».proof.Proof.Gen.ReferenceIdeal.Run
import proofs.«156256_j1623497638183_1_alg».proof.Proof.Spec

set_option maxRecDepth 16384

noncomputable section

namespace Cert.ReferenceIdeal.RefValue

open Cert.ReferenceIdeal Cert.ReferenceIdeal.Value Cert.Gcn
open Idealize.ShloMosaic Idealize.ShloMosaic.TcCoe Idealize.SL.Sem

/-- The reference's result term is `gcn` of the argument arrays. -/
theorem res_eq (m : (ℓ : Loc nD τ sig) → Buf (Elt Ideal) ℓ) (c : Dev nD) :
    res_out0 (F := Ideal) m c
      = gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold res_out0 res_main_v47
  simp only [hostDot64, hostDot128]
  rw [hostBiasRelu, hostBiasRelu, hostAddBias]
  rfl

end Cert.ReferenceIdeal.RefValue

end
-- ==== Proof.lean ====
/-
  Three stacked graph-convolution layers: a Pallas kernel program against its jnp reference, over the extended reals.

  Both programs compute, for node features `x` [50000, 128], an edge list [2, 800000] and three weight/bias pairs,

      out = A (relu (A (relu (A (x · W1)) + b1) · W2) + b2) · W3) + b3,

  where `A t` sums, for every node, the rows of `t` at the sources of its incoming edges (a gather followed by a
  scatter-add into zero). The reference does every step on the host. The kernel program keeps the gathers and
  scatter-adds on the host, with the very same operations, and does the dense steps in four pipelined kernel regions
  over blocks of 5000 rows: `x · W1`; twice "add the bias, cut off the negative part, multiply by the next weights"
  fused in one kernel; and the last bias add. Its kernels narrow the matrix unit's operands to bf16, which is the
  identity over the extended reals, so no algebraic law is needed beyond reading each piece as what it is:

    * the specification `Cert.Gcn.gcn` and the host's spellings of its dense pieces (Proof/Spec.lean);
    * each kernel region's output array as `mm`, `mm (biasRelu · ·) ·` or `addBias` of the arrays the region found
      (Proof/Region0 … Region3.lean, over Proof/KernelDots.lean);
    * the kernel program's result followed back through @main's boundaries to the arguments (Proof/KernelValue.lean,
      over the run with its result named, Proof/KernelRun.lean);
    * the reference's composed result term read as `gcn` (Proof/RefValue.lean).

  The precondition (finite float inputs) is never opened: the two sides are the same function of any inputs.
  The three frames are the generated frame certificates (the reference's is its generated run with the result dropped),
  and the idealization rewrote nothing, so there is nothing to preserve.
-/
import proofs.«156256_j1623497638183_1_alg».proof.Defs
import proofs.«156256_j1623497638183_1_alg».proof.Proof.Gen.Kernel
import proofs.«156256_j1623497638183_1_alg».proof.Proof.Gen.Kernel.Frame
import proofs.«156256_j1623497638183_1_alg».proof.Proof.Gen.KernelIdeal
import proofs.«156256_j1623497638183_1_alg».proof.Proof.Gen.KernelIdeal.Frame
import proofs.«156256_j1623497638183_1_alg».proof.Proof.Gen.ReferenceIdeal
import proofs.«156256_j1623497638183_1_alg».proof.Proof.Gen.ReferenceIdeal.Run
import proofs.«156256_j1623497638183_1_alg».proof.Proof.Gen.Pre_finite_inputs
import proofs.«156256_j1623497638183_1_alg».proof.Proof.KernelRun
import proofs.«156256_j1623497638183_1_alg».proof.Proof.KernelValue
import proofs.«156256_j1623497638183_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments alone: its frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with `gcn` of those arguments in their result. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    refine (Cert.ReferenceIdeal.RefValue.res_eq m' c).trans ?_
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
